-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S14336x1024 : Shape := ⟨2, ![14336, 1024]⟩
abbrev S14336 : Shape := ⟨1, ![14336]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S14336 : S_.BroadcastsInDim S14336 (![] : Fin 0 → Fin S14336.rank)
  reducesTo_S14336_S_d0 : S14336.ReducesTo [0] S_

variable [Facts]

def fn {F : FTy → Type} [FloatOps F] (main_arg0 : FVec F S32x4096 .f32) (main_arg1 : IVec S14336x1024 32) (main_arg2 : FVec F S14336 .f32) (main_arg3 : FVec F S14336 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S14336 .f32 := Host.absf main_arg2
  let main_cst_0 : FVec F S_ .f32 := constant S_ .f32 0x7F800000#32
  let main_v5 : FVec F S14336 .f32 := broadcastInDim S14336 ![] bcast_S_S14336 main_cst_0
  let main_v6 : IVec S14336 1 := cmpf .olt main_v4 main_v5
  let main_c_1 : IVec S_ 1 := constantI S_ 1 1#1
  let main_v7 : IVec S_ 1 := (fun x v => Host.reduce IntOp.andi x v reducesTo_S14336_S_d0 h_S_) main_v6 main_c_1
  let main_v8 : IVec S_ 1 := andi main_v3 main_v7
  let main_v9 : FVec F S14336 .f32 := Host.absf main_arg3
  let main_cst_2 : FVec F S_ .f32 := constant S_ .f32 0x7F800000#32
  let main_v10 : FVec F S14336 .f32 := broadcastInDim S14336 ![] bcast_S_S14336 main_cst_2
  let main_v11 : IVec S14336 1 := cmpf .olt main_v9 main_v10
  let main_c_3 : IVec S_ 1 := constantI S_ 1 1#1
  let main_v12 : IVec S_ 1 := (fun x v => Host.reduce IntOp.andi x v reducesTo_S14336_S_d0 h_S_) main_v11 main_c_3
  let main_v13 : IVec S_ 1 := andi main_v8 main_v12
  main_v13
-- ==== Kernel.lean ====
abbrev S32x4096 : Shape := ⟨2, ![32, 4096]⟩
abbrev S14336x1024 : Shape := ⟨2, ![14336, 1024]⟩
abbrev S14336 : Shape := ⟨1, ![14336]⟩
abbrev S1x14336 : Shape := ⟨2, ![1, 14336]⟩
abbrev S32x1024x4 : Shape := ⟨3, ![32, 1024, 4]⟩
abbrev S32x4x1024 : Shape := ⟨3, ![32, 4, 1024]⟩
abbrev S32x14336 : Shape := ⟨2, ![32, 14336]⟩
abbrev S256x1024 : Shape := ⟨2, ![256, 1024]⟩
abbrev S1x256 : Shape := ⟨2, ![1, 256]⟩
abbrev S32x256 : Shape := ⟨2, ![32, 256]⟩
abbrev S256x4096 : Shape := ⟨2, ![256, 4096]⟩

abbrev nBuf : Space → Nat
  | .hbm => 10
  | .vmem => 9
  | .smem => 0
  | _ => 0

abbrev bufTy : (tb : Table) → Fin (tcTables nBuf tb) → BufTy
  | .hbm, ⟨0, _⟩ => ⟨S32x4096, .f32⟩
  | .hbm, ⟨1, _⟩ => ⟨S14336x1024, .i32⟩
  | .hbm, ⟨2, _⟩ => ⟨S14336, .f32⟩
  | .hbm, ⟨3, _⟩ => ⟨S14336, .f32⟩
  | .hbm, ⟨4, _⟩ => ⟨S1x14336, .f32⟩
  | .hbm, ⟨5, _⟩ => ⟨S1x14336, .f32⟩
  | .hbm, ⟨6, _⟩ => ⟨S32x1024x4, .f32⟩
  | .hbm, ⟨7, _⟩ => ⟨S32x4x1024, .f32⟩
  | .hbm, ⟨8, _⟩ => ⟨S32x4096, .f32⟩
  | .hbm, ⟨9, _⟩ => ⟨S32x14336, .f32⟩
  | .local _ .vmem, ⟨0, _⟩ => ⟨S32x4096, .f32⟩
  | .local _ .vmem, ⟨1, _⟩ => ⟨S256x1024, .i32⟩
  | .local _ .vmem, ⟨2, _⟩ => ⟨S256x1024, .i32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S32x256, .f32⟩
  | .local _ .vmem, ⟨8, _⟩ => ⟨S32x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S14336_S1x14336 : S14336.ShapeCasts S1x14336
  shapeCasts_S32x4096_S32x1024x4 : S32x4096.ShapeCasts S32x1024x4
  transposes_S32x1024x4_S32x4x1024_0_2_1 : S32x1024x4.Transposes [0, 2, 1] S32x4x1024
  shapeCasts_S32x4x1024_S32x4096 : S32x4x1024.ShapeCasts S32x4096
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  concatenates_S256x1024_S256x1024_S256x1024_S256x1024_S256x4096_d1 : Shape.Concatenates [S256x1024, S256x1024, S256x1024, S256x1024] S256x4096 1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S32x256_S32x256_0_0 : ∀ a, (![0, 0] : Fin 2 → Nat) a + S32x256.size a ≤ S32x256.size a
  h_S32x256 : 0 < S32x256.numel
  dot_S32x4096_S256x4096_S32x256_1_1_0_0_n_n_wf : DotDims.WF S32x4096 S256x4096 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S14336x1024.size a
  hwx0_1 : ∀ i : grid0.Coords, EltTy.bits .i32 = 32 ∨ (Rect.block (s := S14336x1024) S256x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x14336.size a
  hwx0_2 : ∀ i : grid0.Coords, EltTy.bits .f32 = 32 ∨ (Rect.block (s := S1x14336) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x14336.size a
  hwx0_3 : ∀ i : grid0.Coords, EltTy.bits .f32 = 32 ∨ (Rect.block (s := S1x14336) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x14336.size a
  hwx0_4 : ∀ i : grid0.Coords, EltTy.bits .f32 = 32 ∨ (Rect.block (s := S32x14336) S32x256.size (cc0_transform_4 i) (hinb0_4 i)).WholeWords (EltTy.packing .f32)

variable [Facts₀]

def dot_S32x4096_S256x4096_S32x256_1_1_0_0_n_n : DotDims S32x4096 S256x4096 S32x256 where
  lhsContracting := [1]
  rhsContracting := [1]
  lhsNonContracting := [0]
  rhsNonContracting := [0]
  lhsBatch := []
  rhsBatch := []
  wf := dot_S32x4096_S256x4096_S32x256_1_1_0_0_n_n_wf

abbrev win0_0 : Pipeline.Window sig grid0 :=
  Pipeline.Window.ofSpec (Memref.whole main_v4) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x4096 : Shape := ⟨2, ![32, 4096]⟩
abbrev S14336x1024 : Shape := ⟨2, ![14336, 1024]⟩
abbrev S14336 : Shape := ⟨1, ![14336]⟩
abbrev S4 : Shape := ⟨1, ![4]⟩
abbrev S_ : Shape := ⟨0, ![]⟩
abbrev S14336x1024x1 : Shape := ⟨3, ![14336, 1024, 1]⟩
abbrev S14336x1024x4 : Shape := ⟨3, ![14336, 1024, 4]⟩
abbrev S14336x4096 : Shape := ⟨2, ![14336, 4096]⟩
abbrev S14336x4096x1 : Shape := ⟨3, ![14336, 4096, 1]⟩
abbrev S32x14336 : Shape := ⟨2, ![32, 14336]⟩
abbrev S1x14336 : Shape := ⟨2, ![1, 14336]⟩

abbrev nBuf : Space → Nat
  | .hbm => 59
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S14336x1024, .i32⟩
  | .hbm, ⟨2, _⟩ => ⟨S14336, .f32⟩
  | .hbm, ⟨3, _⟩ => ⟨S14336, .f32⟩
  | .hbm, ⟨4, _⟩ => ⟨S4, .f32⟩
  | .hbm, ⟨5, _⟩ => ⟨S_, .i32⟩
  | .hbm, ⟨6, _⟩ => ⟨S14336x1024, .i32⟩
  | .hbm, ⟨7, _⟩ => ⟨S14336x1024, .i32⟩
  | .hbm, ⟨8, _⟩ => ⟨S_, .i32⟩
  | .hbm, ⟨9, _⟩ => ⟨S14336x1024, .i32⟩
  | .hbm, ⟨10, _⟩ => ⟨S14336x1024, .i32⟩
  | .hbm, ⟨11, _⟩ => ⟨S_, .i32⟩
  | .hbm, ⟨12, _⟩ => ⟨S14336x1024, .i32⟩
  | .hbm, ⟨13, _⟩ => ⟨S14336x1024, .i32⟩
  | .hbm, ⟨14, _⟩ => ⟨S_, .i32⟩
  | .hbm, ⟨15, _⟩ => ⟨S14336x1024, .i32⟩
  | .hbm, ⟨16, _⟩ => ⟨S14336x1024, .i32⟩
  | .hbm, ⟨17, _⟩ => ⟨S_, .i32⟩
  | .hbm, ⟨18, _⟩ => ⟨S14336x1024, .i32⟩
  | .hbm, ⟨19, _⟩ => ⟨S14336x1024, .i32⟩
  | .hbm, ⟨20, _⟩ => ⟨S_, .i32⟩
  | .hbm, ⟨21, _⟩ => ⟨S14336x1024, .i32⟩
  | .hbm, ⟨22, _⟩ => ⟨S14336x1024, .i32⟩
  | .hbm, ⟨23, _⟩ => ⟨S_, .i32⟩
  | .hbm, ⟨24, _⟩ => ⟨S14336x1024, .i32⟩
  | .hbm, ⟨25, _⟩ => ⟨S14336x1024, .i32⟩
  | .hbm, ⟨26, _⟩ => ⟨S_, .i32⟩
  | .hbm, ⟨27, _⟩ => ⟨S14336x1024, .i32⟩
  | .hbm, ⟨28, _⟩ => ⟨S14336x1024, .i32⟩
  | .hbm, ⟨29, _⟩ => ⟨S14336x1024x1, .i32⟩
  | .hbm, ⟨30, _⟩ => ⟨S14336x1024x1, .i32⟩
  | .hbm, ⟨31, _⟩ => ⟨S14336x1024x1, .i32⟩
  | .hbm, ⟨32, _⟩ => ⟨S14336x1024x1, .i32⟩
  | .hbm, ⟨33, _⟩ => ⟨S14336x1024x4, .i32⟩
  | .hbm, ⟨34, _⟩ => ⟨S14336x4096, .i32⟩
  | .hbm, ⟨35, _⟩ => ⟨S_, .i32⟩
  | .hbm, ⟨36, _⟩ => ⟨S14336x4096, .i32⟩
  | .hbm, ⟨37, _⟩ => ⟨S14336x4096, .i1⟩
  | .hbm, ⟨38, _⟩ => ⟨S_, .i32⟩
  | .hbm, ⟨39, _⟩ => ⟨S14336x4096, .i32⟩
  | .hbm, ⟨40, _⟩ => ⟨S14336x4096, .i32⟩
  | .hbm, ⟨41, _⟩ => ⟨S14336x4096, .i32⟩
  | .hbm, ⟨42, _⟩ => ⟨S14336x4096x1, .i32⟩
  | .hbm, ⟨43, _⟩ => ⟨S14336x4096, .f32⟩
  | .hbm, ⟨44, _⟩ => ⟨S32x14336, .f32⟩
  | .hbm, ⟨45, _⟩ => ⟨S1x14336, .f32⟩
  | .hbm, ⟨46, _⟩ => ⟨S32x14336, .f32⟩
  | .hbm, ⟨47, _⟩ => ⟨S32x14336, .f32⟩
  | .hbm, ⟨48, _⟩ => ⟨S1x14336, .f32⟩
  | .hbm, ⟨49, _⟩ => ⟨S32x14336, .f32⟩
  | .hbm, ⟨50, _⟩ => ⟨S32x14336, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S32x14336, .f32⟩
  | .hbm, ⟨55, _⟩ => ⟨S32x14336, .f32⟩
  | .hbm, ⟨56, _⟩ => ⟨S_, .f32⟩
  | .hbm, ⟨57, _⟩ => ⟨S32x14336, .f32⟩
  | .hbm, ⟨58, _⟩ => ⟨S32x14336, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_c_6 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_c_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_cst_10 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v36 : Ref sig .tc := ⟨.hbm, 58, rfl⟩

abbrev nD : Nat := 1
abbrev τ : Topo := Topo.v7x

variable {F : FTy → Type} [FloatOps F]

class Facts₀ : Prop where
  bcast_S_S14336x1024 : S_.BroadcastsInDim S14336x1024 (![] : Fin 0 → Fin S14336x1024.rank)
  bcast_S14336x1024_S14336x1024x1_0_1 : S14336x1024.BroadcastsInDim S14336x1024x1 (![0, 1] : Fin 2 → Fin S14336x1024x1.rank)
  concatenates_S14336x1024x1_S14336x1024x1_S14336x1024x1_S14336x1024x1_S14336x1024x4_d2 : Shape.Concatenates [S14336x1024x1, S14336x1024x1, S14336x1024x1, S14336x1024x1] S14336x1024x4 2
  shapeCasts_S14336x1024x4_S14336x4096 : S14336x1024x4.ShapeCasts S14336x4096
  bcast_S_S14336x4096 : S_.BroadcastsInDim S14336x4096 (![] : Fin 0 → Fin S14336x4096.rank)
  bcast_S14336x4096_S14336x4096x1_0_1 : S14336x4096.BroadcastsInDim S14336x4096x1 (![0, 1] : Fin 2 → Fin S14336x4096x1.rank)
  bcast_S14336_S1x14336_1 : S14336.BroadcastsInDim S1x14336 (![1] : Fin 1 → Fin S1x14336.rank)
  bcast_S1x14336_S32x14336_0_1 : S1x14336.BroadcastsInDim S32x14336 (![0, 1] : Fin 2 → Fin S32x14336.rank)
  bcast_S_S32x14336 : S_.BroadcastsInDim S32x14336 (![] : Fin 0 → Fin S32x14336.rank)
  gather_S4_S14336x4096x1_S14336x4096_n_0_n_n_0_2_1_wf : GatherDims.WF S4 S14336x4096x1 S14336x4096 [] [0] [] [0] [] 2 ![1]
  dot_S32x4096_S14336x4096_S32x14336_1_1_0_0_n_n_wf : DotDims.WF S32x4096 S14336x4096 S32x14336 [1] [1] [0] [0] [] []

variable [Facts₀]

def gather_S4_S14336x4096x1_S14336x4096_n_0_n_n_0_2_1 : GatherDims S4 S14336x4096x1 S14336x4096 where
  offsetDims := []
  collapsedSliceDims := [0]
  operandBatchingDims := []
  startIndicesBatchingDims := []
  startIndexMap := [0]
  indexVectorDim := 2
  sliceSizes := ![1]
  wf := gather_S4_S14336x4096x1_S14336x4096_n_0_n_n_0_2_1_wf
def dot_S32x4096_S14336x4096_S32x14336_1_1_0_0_n_n : DotDims S32x4096 S14336x4096 S32x14336 where
  lhsContracting := [1]
  rhsContracting := [1]
  lhsNonContracting := [0]
  rhsNonContracting := [0]
  lhsBatch := []
  rhsBatch := []
  wf := dot_S32x4096_S14336x4096_S32x14336_1_1_0_0_n_n_wf

class Facts : Prop extends Facts₀ where

variable [Facts]
-- ==== Proof.Spec.lean ====
/-
  The mathematics shared by both programs, over no program at all.

  A packed weight word holds four 2-bit crumbs; crumb `i` of a word `w` is `(w >>ₛ 2i) & 3`, and a crumb denotes a
  ternary weight: `1 ↦ 1`, `2 ↦ -1`, `0` and `3 ↦ 0`.  The dense weight matrix has `W[u, 4p + i] = weight (crumb i of pw[u, p])`,
  and the result is `clip (x · Wᵀ · scale + bias)` to `[-100, 100]`, index by index over the extended reals.

  The one law: a sum over the 4096 input features may be taken crumb-plane by crumb-plane (feature `i·1024 + p` first
  for all `p`, then the next plane) instead of word by word (feature `4p + i`): the two orders differ by a bijection of
  the index set, and addition on the extended reals is commutative and associative.
-/
import Idealize.ShloMosaic.PureOps.Ideal
import Idealize.ShloMosaic.Lib.ValueIdx

noncomputable section

namespace Cert.Ternary

open Idealize.ShloMosaic Idealize.ShloMosaic.ValueIdx

/-- The ternary weight a 2-bit crumb denotes: `1 ↦ 1.0`, `2 ↦ -1.0`, anything else `0.0`. -/
def tern (c : BitVec 32) : EReal :=
  if c = 1#32 then Ideal.ofBits .f32 0x3F800000#32
  else if c = 2#32 then Ideal.ofBits .f32 0xBF800000#32
  else Ideal.ofBits .f32 0x00000000#32

/-- Crumb `i` of a packed word: the two bits at position `2i`. -/
def crumb (w : BitVec 32) (i : Nat) : BitVec 32 := (w.sshiftRight (2 * i)) &&& 3#32

/-- The weight crumb `i` of a packed word denotes. -/
def wt (w : BitVec 32) (i : Nat) : EReal := tern (crumb w i)

theorem crumb_lt (w : BitVec 32) (i : Nat) : (crumb w i).toNat < 4 := by
  unfold crumb
  rw [BitVec.toNat_and]
  exact Nat.lt_succ_of_le Nat.and_le_right

/-- Row `b` of `x` against row `u` of the dense ternary matrix, feature by feature: feature `d` is crumb `d % 4` of word `d / 4`. -/
def dotW (x : (⟨2, ![32, 4096]⟩ : Shape).Idx → EReal) (pw : (⟨2, ![14336, 1024]⟩ : Shape).Idx → BitVec 32)
    (b : Fin 32) (u : Fin 14336) : EReal :=
  ∑ d : Fin 4096, x (ix2 b d) * wt (pw (ix2 u (⟨d.val / 4, by have := d.isLt; omega⟩ : Fin 1024))) (d.val % 4)

/-- The result at row `b`, unit `u`: the dot product, the per-unit affine map, the clip. -/
def clipAffineAt (x : (⟨2, ![32, 4096]⟩ : Shape).Idx → EReal) (pw : (⟨2, ![14336, 1024]⟩ : Shape).Idx → BitVec 32)
    (sc bi : (⟨1, ![14336]⟩ : Shape).Idx → EReal) (b : Fin 32) (u : Fin 14336) : EReal :=
  min (Ideal.ofBits .f32 0x42C80000#32) (max (Ideal.ofBits .f32 0xC2C80000#32) (dotW x pw b u * sc (ix1 u) + bi (ix1 u)))

/-- The whole result array as one function of the argument arrays. -/
def clipAffine (x : (⟨2, ![32, 4096]⟩ : Shape).Idx → EReal) (pw : (⟨2, ![14336, 1024]⟩ : Shape).Idx → BitVec 32)
    (sc bi : (⟨1, ![14336]⟩ : Shape).Idx → EReal) : (⟨2, ![32, 14336]⟩ : Shape).Idx → EReal :=
  fun j => clipAffineAt x pw sc bi (j 0) (j 1)

theorem clipAffine_ix2 (x : (⟨2, ![32, 4096]⟩ : Shape).Idx → EReal) (pw : (⟨2, ![14336, 1024]⟩ : Shape).Idx → BitVec 32)
    (sc bi : (⟨1, ![14336]⟩ : Shape).Idx → EReal) (b : Fin 32) (u : Fin 14336) :
    clipAffine x pw sc bi (ix2 b u) = clipAffineAt x pw sc bi b u := rfl

/-- Plane-major feature `k = i·1024 + p` is word-major feature `4p + i`: a bijection of the 4096 features. -/
def planeEquiv : Fin 4096 ≃ Fin 4096 where
  toFun k := ⟨4 * (k.val % 1024) + k.val / 1024, by have := k.isLt; omega⟩
  invFun d := ⟨(d.val % 4) * 1024 + d.val / 4, by have := d.isLt; omega⟩
  left_inv k := Fin.ext (by have := k.isLt; show (4 * (k.val % 1024) + k.val / 1024) % 4 * 1024 + (4 * (k.val % 1024) + k.val / 1024) / 4 = k.val; omega)
  right_inv d := Fin.ext (by have := d.isLt; show 4 * (((d.val % 4) * 1024 + d.val / 4) % 1024) + ((d.val % 4) * 1024 + d.val / 4) / 1024 = d.val; omega)

/-- THE LAW: the dot product taken crumb-plane by crumb-plane — term `k = i·1024 + p` pairs `x[b, 4p + i]` with crumb `i` of
    word `p` — is the dot product taken feature by feature. -/
theorem dotW_planes (x : (⟨2, ![32, 4096]⟩ : Shape).Idx → EReal) (pw : (⟨2, ![14336, 1024]⟩ : Shape).Idx → BitVec 32)
    (b : Fin 32) (u : Fin 14336) :
    (∑ k : Fin 4096, x (ix2 b (⟨4 * (k.val % 1024) + k.val / 1024, by have := k.isLt; omega⟩ : Fin 4096))
        * wt (pw (ix2 u (⟨k.val % 1024, Nat.mod_lt _ (by norm_num)⟩ : Fin 1024))) (k.val / 1024))
      = dotW x pw b u := by
  unfold dotW
  refine Fintype.sum_equiv planeEquiv _ _ fun k => ?_
  have hk := k.isLt
  have h4 : (planeEquiv k).val / 4 = k.val % 1024 := by
    show (4 * (k.val % 1024) + k.val / 1024) / 4 = k.val % 1024; omega
  have hm : (planeEquiv k).val % 4 = k.val / 1024 := by
    show (4 * (k.val % 1024) + k.val / 1024) % 4 = k.val / 1024; omega
  have e1 : (⟨(planeEquiv k).val / 4, by have := (planeEquiv k).isLt; omega⟩ : Fin 1024) = ⟨k.val % 1024, Nat.mod_lt _ (by norm_num)⟩ :=
    Fin.ext h4
  rw [e1, hm]
  rfl

end Cert.Ternary

end
-- ==== Proof.Words.lean ====
/-
  Word facts both programs use: a select on a word equality is an `if`; the two comparisons and selects that map a crumb
  to its weight; and a crumb as the programs compute it — an arithmetic right shift by an even in-range amount
  followed by the mask `3` (the low crumb without any shift).
-/
import proofs.«418144_j90434831385364_2_alg».proof.Proof.Spec

noncomputable section

namespace Cert.Ternary

open Idealize.ShloMosaic

/-- A select on a word equality is an `if` on that equality. -/
theorem select_cmpi_eq {α : Type} (c k : BitVec 32) (a b : α) :
    Scalar.select (IntOp.cmpi .eq c k) a b = if c = k then a else b := by
  show (if BitVec.ofBool (c == k) = 1 then a else b) = _
  by_cases h : c = k
  · subst h; simp
  · have hb : (c == k) = false := beq_false_of_ne h
    rw [hb, if_neg h]
    exact if_neg (by decide)

/-- Two comparisons and selects — `c = 1 ? 1.0 : (c = 2 ? -1.0 : 0.0)` — are the ternary weight of the crumb `c`. -/
theorem select_tern (c : BitVec 32) :
    Scalar.select (IntOp.cmpi .eq c 1#32) (Ideal.ofBits .f32 0x3F800000#32)
      (Scalar.select (IntOp.cmpi .eq c 2#32) (Ideal.ofBits .f32 0xBF800000#32) (Ideal.ofBits .f32 0x00000000#32)) = tern c := by
  rw [select_cmpi_eq, select_cmpi_eq]; rfl

/-- The low crumb needs no shift. -/
theorem andi_crumb0 (w : BitVec 32) : IntOp.andi w 3#32 = crumb w 0 := by
  simp [IntOp.andi, crumb]

/-- An arithmetic right shift by `2i` places (in range) and the mask `3` is crumb `i`, on any unit. -/
theorem andi_shrsi_crumb (u : ArithUnit) (w s : BitVec 32) (i : Nat) (hs : s.toNat = 2 * i) (hlt : s.toNat < 32) :
    IntOp.andi (IntOp.shrsi u w s) 3#32 = crumb w i := by
  unfold IntOp.andi IntOp.shrsi crumb
  rw [if_pos hlt]
  unfold BitVec.sshiftRight'
  rw [hs]

end Cert.Ternary

end
-- ==== Proof.KernelBlock.lean ====
/-
  The kernel body's result at an index of its output block.

  One grid point holds a block of 256 units: the packed words `pwb : [256, 1024]`, the (plane-major) permuted
  activations `xp : [32, 4096]`, and the units' scale and bias as rows `[1, 256]`.  The body splits each word into its four
  crumbs, lays the four crumb planes side by side along the feature axis (feature `i·1024 + p` is crumb `i` of word
  `p`), maps each crumb to its ternary weight by two word comparisons, multiplies `xp` by the transposed weights on the
  matrix unit into a zero accumulator, applies the per-unit affine map and clips.  At `(b, r)` that is
  `min(100, max(-100, (Σ_k xp[b,k] · weight(crumb (k / 1024) of pwb[r, k % 1024])) · scale[r] + bias[r]))`.
-/
import proofs.«418144_j90434831385364_2_alg».proof.Proof.Gen.KernelIdeal.Skeleton
import proofs.«418144_j90434831385364_2_alg».proof.Proof.Words
import Idealize.ShloMosaic.Lib.ValueIdx
import Idealize.ShloMosaic.Lib.ValueLayout
import Idealize.ShloMosaic.Lib.Pipeline.Value
import Idealize.ShloMosaic.PureOps.Ideal.Laws

noncomputable section

namespace Cert.Ternary.Kernel

open Cert.KernelIdeal Cert.KernelIdeal.Gen Idealize.ShloMosaic Idealize.ShloMosaic.ValueIdx Cert.Ternary

/-! ## The four crumb planes side by side, and the product with the transposed weights -/

/-- The four planes laid side by side along the feature axis: feature `k` is plane `k / 1024` at word `k % 1024`. -/
theorem lanes_apply (p0 p1 p2 p3 : IVec S256x1024 32) (r : Fin 256) (k : Fin 4096) :
    concatenate S256x4096 1 [⟨S256x1024, p0⟩, ⟨S256x1024, p1⟩, ⟨S256x1024, p2⟩, ⟨S256x1024, p3⟩]
        concatenates_S256x1024_S256x1024_S256x1024_S256x1024_S256x4096_d1 (ix2 r k)
      = (if k.val / 1024 = 0 then p0 else if k.val / 1024 = 1 then p1 else if k.val / 1024 = 2 then p2 else p3)
          (ix2 r (⟨k.val % 1024, Nat.mod_lt _ (by norm_num)⟩ : Fin 1024)) := by
  have hk := k.isLt
  have hoff : ∀ (b : Fin S256x1024.rank), b.cast (rfl : S256x1024.rank = S256x4096.rank) ≠ (1 : Fin S256x4096.rank) →
      ((ix2 r (⟨k.val % 1024, Nat.mod_lt _ (by norm_num)⟩ : Fin 1024) : S256x1024.Idx) b).val = ((ix2 r k : S256x4096.Idx) (b.cast rfl)).val := by
    intro b hb
    match b with
    | ⟨0, _⟩ => rfl
    | ⟨1, _⟩ => exact absurd rfl hb
  rcases (by omega : k.val / 1024 = 0 ∨ k.val / 1024 = 1 ∨ k.val / 1024 = 2 ∨ k.val / 1024 = 3) with h | h | h | h
  · rw [if_pos h]
    exact concatenate_apply_piece (t := S256x4096) (1 : Fin 2) [⟨S256x1024, p0⟩, ⟨S256x1024, p1⟩, ⟨S256x1024, p2⟩, ⟨S256x1024, p3⟩] concatenates_S256x1024_S256x1024_S256x1024_S256x1024_S256x4096_d1 (ix2 r k) 0 (by show 0 < 4; omega) S256x1024 p0 rfl rfl 0 rfl _ hoff
      (by show 0 + k.val % 1024 = k.val; omega)
  · rw [if_neg (by omega), if_pos h]
    exact concatenate_apply_piece (t := S256x4096) (1 : Fin 2) [⟨S256x1024, p0⟩, ⟨S256x1024, p1⟩, ⟨S256x1024, p2⟩, ⟨S256x1024, p3⟩] concatenates_S256x1024_S256x1024_S256x1024_S256x1024_S256x4096_d1 (ix2 r k) 1 (by show 1 < 4; omega) S256x1024 p1 rfl rfl 1024 rfl _ hoff
      (by show 1024 + k.val % 1024 = k.val; omega)
  · rw [if_neg (by omega), if_neg (by omega), if_pos h]
    exact concatenate_apply_piece (t := S256x4096) (1 : Fin 2) [⟨S256x1024, p0⟩, ⟨S256x1024, p1⟩, ⟨S256x1024, p2⟩, ⟨S256x1024, p3⟩] concatenates_S256x1024_S256x1024_S256x1024_S256x1024_S256x4096_d1 (ix2 r k) 2 (by show 2 < 4; omega) S256x1024 p2 rfl rfl 2048 rfl _ hoff
      (by show 2048 + k.val % 1024 = k.val; omega)
  · rw [if_neg (by omega), if_neg (by omega), if_neg (by omega)]
    exact concatenate_apply_piece (t := S256x4096) (1 : Fin 2) [⟨S256x1024, p0⟩, ⟨S256x1024, p1⟩, ⟨S256x1024, p2⟩, ⟨S256x1024, p3⟩] concatenates_S256x1024_S256x1024_S256x1024_S256x1024_S256x4096_d1 (ix2 r k) 3 (by show 3 < 4; omega) S256x1024 p3 rfl rfl 3072 rfl _ hoff
      (by show 3072 + k.val % 1024 = k.val; omega)

/-- The matrix unit's product of `[32, 4096]` by the TRANSPOSE of `[256, 4096]` into a zero accumulator, at `(b, r)`: the sum over the
    4096 features of the products of row `b` and row `r`. -/
theorem matmul_nt_apply (L : FVec Ideal S32x4096 .bf16) (R : FVec Ideal S256x4096 .bf16) (b : Fin 32) (r : Fin 256) :
    matmul dot_S32x4096_S256x4096_S32x256_1_1_0_0_n_n none L R (constant S32x256 .f32 0x00000000#32) (ix2 b r)
      = ∑ k : Fin 4096, L (ix2 b k) * R (ix2 r k) := by
  show FloatOps.matmul _ none L R (constant S32x256 .f32 0x00000000#32) (ix2 b r) = _
  rw [Ideal.matmul_constant_zero_apply, ← Equiv.sum_comp (contrEquiv1 dot_S32x4096_S256x4096_S32x256_1_1_0_0_n_n 4096 rfl rfl).symm]
  refine Finset.sum_congr rfl fun k _ => ?_
  have c2 := contrEquiv1_symm_val dot_S32x4096_S256x4096_S32x256_1_1_0_0_n_n 4096 rfl rfl k
  have l2 : dot_S32x4096_S256x4096_S32x256_1_1_0_0_n_n.lhsIdx (ix2 b r) ((contrEquiv1 _ 4096 rfl rfl).symm k) = ix2 b k := by
    funext ax; apply Fin.ext
    match ax with
    | ⟨0, _⟩ => simp [DotDims.lhsIdx, dot_S32x4096_S256x4096_S32x256_1_1_0_0_n_n]; rfl
    | ⟨1, _⟩ => simp [DotDims.lhsIdx, dot_S32x4096_S256x4096_S32x256_1_1_0_0_n_n]; exact c2
  have r2 : dot_S32x4096_S256x4096_S32x256_1_1_0_0_n_n.rhsIdx (ix2 b r) ((contrEquiv1 _ 4096 rfl rfl).symm k) = ix2 r k := by
    funext ax; apply Fin.ext
    match ax with
    | ⟨0, _⟩ => simp [DotDims.rhsIdx, dot_S32x4096_S256x4096_S32x256_1_1_0_0_n_n]; rfl
    | ⟨1, _⟩ => simp [DotDims.rhsIdx, dot_S32x4096_S256x4096_S32x256_1_1_0_0_n_n]; exact c2
  rw [l2, r2]

/-! ## The whole payload at an index -/

/-- THE BODY'S RESULT AT `(b, r)`: the plane-major dot product of row `b` of `xp` with the ternary weights of unit `r`'s packed
    words, times the unit's scale, plus its bias, clipped. -/
theorem payload_at (xp : Vec Ideal S32x4096 .f32) (pwb : Vec Ideal S256x1024 .i32) (scb bib : Vec Ideal S1x256 .f32)
    (b : Fin 32) (r : Fin 256) :
    k0_pay1 (F := Ideal) (k0_pay2 xp pwb scb bib) (ix2 b r)
      = min (Ideal.ofBits .f32 0x42C80000#32) (max (Ideal.ofBits .f32 0xC2C80000#32)
          ((∑ k : Fin 4096, xp (ix2 b k) * wt (pwb (ix2 r (⟨k.val % 1024, Nat.mod_lt _ (by norm_num)⟩ : Fin 1024))) (k.val / 1024))
            * scb (ix2 (0 : Fin 1) r) + bib (ix2 (0 : Fin 1) r))) := by
  unfold k0_pay1 k0_pay2
  simp only [minimumf_apply, maximumf_apply, broadcast_apply, addf_apply, mulf_apply]
  rw [matmul_nt_apply, broadcastTo_1b_ab_apply, broadcastTo_1b_ab_apply, shapeCast_self, shapeCast_self, shapeCast_self]
  refine congrArg (min _) (congrArg (max _) (congrArg (· * scb (ix2 (0 : Fin 1) r) + bib (ix2 (0 : Fin 1) r))
    (Finset.sum_congr rfl fun k _ => ?_)))
  have hk := k.isLt
  show xp (ix2 b k) * Scalar.select (IntOp.cmpi .eq (concatenate S256x4096 1 _ _ (ix2 r k)) 1#32) (Ideal.ofBits .f32 0x3F800000#32)
      (Scalar.select (IntOp.cmpi .eq (concatenate S256x4096 1 _ _ (ix2 r k)) 2#32) (Ideal.ofBits .f32 0xBF800000#32)
        (Ideal.ofBits .f32 0x00000000#32)) = _
  rw [lanes_apply, select_tern]
  refine congrArg (xp (ix2 b k) * ·) (congrArg tern ?_)
  rcases (by omega : k.val / 1024 = 0 ∨ k.val / 1024 = 1 ∨ k.val / 1024 = 2 ∨ k.val / 1024 = 3) with h | h | h | h
  · rw [if_pos h, h]; exact andi_crumb0 _
  · rw [if_neg (by omega), if_pos h, h]; exact andi_shrsi_crumb .vector _ 2#32 1 rfl (by decide)
  · rw [if_neg (by omega), if_neg (by omega), if_pos h, h]; exact andi_shrsi_crumb .vector _ 4#32 2 rfl (by decide)
  · rw [if_neg (by omega), if_neg (by omega), if_neg (by omega), h]; exact andi_shrsi_crumb .vector _ 6#32 3 rfl (by decide)

/-! ## A block's result is the specification at the block's place -/

/-- If the point's blocks are what the arguments hold at the block's place — the activations permuted plane-major, the
    packed words, scale and bias of units `256·t … 256·t + 255` — then the body's result at `(b, r)` is the specification at
    `(b, 256·t + r)`: the plane-major dot product is the feature-major one (`dotW_planes`). -/
theorem block_eq (xp x : Vec Ideal S32x4096 .f32) (pwb : Vec Ideal S256x1024 .i32)
    (pw : (⟨2, ![14336, 1024]⟩ : Shape).Idx → BitVec 32) (scb bib : Vec Ideal S1x256 .f32)
    (sc bi : (⟨1, ![14336]⟩ : Shape).Idx → EReal) (t : Nat) (ht : t < 56)
    (hx : ∀ (b : Fin 32) (k : Fin 4096), xp (ix2 b k) = x (ix2 b (⟨4 * (k.val % 1024) + k.val / 1024, by have := k.isLt; omega⟩ : Fin 4096)))
    (hpw : ∀ (r : Fin 256) (p : Fin 1024), pwb (ix2 r p) = pw (ix2 (⟨t * 256 + r.val, by have := r.isLt; omega⟩ : Fin 14336) p))
    (hsc : ∀ r : Fin 256, scb (ix2 (0 : Fin 1) r) = sc (ix1 (⟨t * 256 + r.val, by have := r.isLt; omega⟩ : Fin 14336)))
    (hbi : ∀ r : Fin 256, bib (ix2 (0 : Fin 1) r) = bi (ix1 (⟨t * 256 + r.val, by have := r.isLt; omega⟩ : Fin 14336)))
    (b : Fin 32) (r : Fin 256) :
    k0_pay1 (F := Ideal) (k0_pay2 xp pwb scb bib) (ix2 b r)
      = clipAffine x pw sc bi (ix2 b (⟨t * 256 + r.val, by have := r.isLt; omega⟩ : Fin 14336)) := by
  rw [payload_at, clipAffine_ix2]
  unfold clipAffineAt
  rw [hsc, hbi, ← dotW_planes]
  refine congrArg (min _) (congrArg (max _) (congrArg
    (· * sc (ix1 (⟨t * 256 + r.val, by have := r.isLt; omega⟩ : Fin 14336)) + bi (ix1 (⟨t * 256 + r.val, by have := r.isLt; omega⟩ : Fin 14336)))
    (Finset.sum_congr rfl fun k _ => ?_)))
  rw [hx, hpw]

end Cert.Ternary.Kernel

end
-- ==== Proof.KernelArray.lean ====
/-
  From blocks to the array: what the kernel's result array holds after the run.

  Before the region the host permutes the activations plane-major — `[32, 4096] → [32, 1024, 4] → [32, 4, 1024] → [32, 4096]`,
  so that entry `(b, i·1024 + p)` is `x[b, 4p + i]` — and views scale and bias as rows `[1, 14336]`.  Grid point `t` of 56
  sees the whole permuted activations, the packed words, scale and bias of units `256·t … 256·t + 255`, and writes
  columns `256·t … 256·t + 255` of the result.  Each point's block is the specification `clipAffine` there (`block_eq`), and the 56
  column blocks tile the result, so the result array is `clipAffine` of the argument arrays.
-/
import proofs.«418144_j90434831385364_2_alg».proof.Proof.Gen.KernelIdeal.Value
import proofs.«418144_j90434831385364_2_alg».proof.Proof.KernelBlock
import Idealize.ShloMosaic.Lib.ValueIdx
import Idealize.ShloMosaic.Lib.ValueLayout
import Idealize.ShloMosaic.Lib.Pipeline.Value
import Idealize.ShloMosaic.Lib.StableHlo.Run

noncomputable section

namespace Cert.Ternary.KernelArr

open Cert.KernelIdeal Cert.KernelIdeal.Gen Idealize.ShloMosaic Idealize.ShloMosaic.TcCoe Idealize.SL.Sem
open Idealize.ShloMosaic.ValueIdx Idealize.ShloMosaic.StableHlo Cert.Ternary Cert.Ternary.Kernel
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The grid has 56 points. -/
theorem t_lt (t : Fin cfg0.N) : t.val < 56 := by
  have h : cfg0.N = 56 := N_0
  have := t.isLt
  omega

/-! ## The argument arrays, and the arrays the region finds -/

abbrev xarr (c : Dev nD) : Vec Ideal S32x4096 .f32 := m ((c : Thread nD τ).loc main_arg0)
abbrev pwarr (c : Dev nD) : Vec Ideal S14336x1024 .i32 := m ((c : Thread nD τ).loc main_arg1)
abbrev scarr (c : Dev nD) : Vec Ideal S14336 .f32 := m ((c : Thread nD τ).loc main_arg2)
abbrev biarr (c : Dev nD) : Vec Ideal S14336 .f32 := m ((c : Thread nD τ).loc main_arg3)

/-- The permuted activations at `(b, k)`: the argument at `(b, 4·(k % 1024) + k / 1024)`. -/
theorem xperm_apply (c : Dev nD) (b : Fin 32) (k : Fin 4096) :
    (V m c main_v4 : S32x4096.Idx → EReal) (ix2 b k)
      = xarr m c (ix2 b (⟨4 * (k.val % 1024) + k.val / 1024, by have := k.isLt; omega⟩ : Fin 4096)) := by
  have hk := k.isLt
  have e : (V m c main_v4 : S32x4096.Idx → EReal)
      = shapeCast S32x4096 (transpose S32x4x1024 [0, 2, 1] (shapeCast S32x1024x4 (xarr m c) shapeCasts_S32x4096_S32x1024x4)
          transposes_S32x1024x4_S32x4x1024_0_2_1) shapeCasts_S32x4x1024_S32x4096 := by
    dsimp only [Gen.V, Gen.hostOps0]; after_results; rfl
  rw [e, shapeCast_apply _ _ (ix2 b k) (ix3 b (⟨k.val / 1024, by omega⟩ : Fin 4) (⟨k.val % 1024, Nat.mod_lt _ (by norm_num)⟩ : Fin 1024)) (by
        rw [Shape.rowMajor_val_three, Shape.rowMajor_val_two]
        show (b.val * 4 + k.val / 1024) * 1024 + k.val % 1024 = b.val * 4096 + k.val
        omega),
    transpose_ix3_021_apply,
    shapeCast_apply _ _ (ix3 b (⟨k.val % 1024, Nat.mod_lt _ (by norm_num)⟩ : Fin 1024) (⟨k.val / 1024, by omega⟩ : Fin 4))
      (ix2 b (⟨4 * (k.val % 1024) + k.val / 1024, by omega⟩ : Fin 4096)) (by
        rw [Shape.rowMajor_val_three, Shape.rowMajor_val_two]
        show b.val * 4096 + (4 * (k.val % 1024) + k.val / 1024) = (b.val * 1024 + k.val % 1024) * 4 + k.val / 1024
        omega)]

/-- Scale as a row: entry `(0, u)` is the argument at `u`. -/
theorem scale_row_apply (c : Dev nD) (u : Fin 14336) :
    (V m c main_v0 : S1x14336.Idx → EReal) (ix2 (0 : Fin 1) u) = scarr m c (ix1 u) := by
  have e : (V m c main_v0 : S1x14336.Idx → EReal) = shapeCast S1x14336 (scarr m c) shapeCasts_S14336_S1x14336 := by
    dsimp only [Gen.V, Gen.hostOps0]; after_results; rfl
  rw [e, shapeCast_a_1a_apply]

/-- Bias as a row: entry `(0, u)` is the argument at `u`. -/
theorem bias_row_apply (c : Dev nD) (u : Fin 14336) :
    (V m c main_v1 : S1x14336.Idx → EReal) (ix2 (0 : Fin 1) u) = biarr m c (ix1 u) := by
  have e : (V m c main_v1 : S1x14336.Idx → EReal) = shapeCast S1x14336 (biarr m c) shapeCasts_S14336_S1x14336 := by
    dsimp only [Gen.V, Gen.hostOps0]; after_results; rfl
  rw [e, shapeCast_a_1a_apply]

/-- The packed words are found as launched. -/
theorem pw_found (c : Dev nD) : (V m c main_arg1 : S14336x1024.Idx → BitVec 32) = pwarr m c := V_main_arg1 m c

/-! ## Each window's block at a grid point -/

/-- The printed index maps over the grid: the activations' one block; the packed words' row block `t`; scale's, bias's and
    the result's column block `t`. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

abbrev xblk (c : Dev nD) (t : Fin cfg0.N) : Vec Ideal S32x4096 .f32 := iblk m c 0 t
abbrev pwblk (c : Dev nD) (t : Fin cfg0.N) : Vec Ideal S256x1024 .i32 := iblk m c 1 t
abbrev scblk (c : Dev nD) (t : Fin cfg0.N) : Vec Ideal S1x256 .f32 := iblk m c 2 t
abbrev biblk (c : Dev nD) (t : Fin cfg0.N) : Vec Ideal S1x256 .f32 := iblk m c 3 t

/-- The activations' block at any point is the whole permuted array. -/
theorem xblk_apply (c : Dev nD) (t : Fin cfg0.N) (b : Fin 32) (k : Fin 4096) :
    xblk m c t (ix2 b k) = (V m c main_v4 : S32x4096.Idx → EReal) (ix2 b k) := by
  obtain ⟨e0, e1, -⟩ := block_indices t
  unfold xblk iblk
  rw [View.read_apply]
  show (V m c main_v4 : S32x4096.Idx → EReal) _ = (V m c main_v4 : S32x4096.Idx → EReal) _
  congr 1
  funext a; apply Fin.ext
  match a with
  | ⟨0, _⟩ => show win0_0.index t (0 : Fin 2) * 32 + 1 * b.val = b.val; rw [e0]; omega
  | ⟨1, _⟩ => show win0_0.index t (1 : Fin 2) * 4096 + 1 * k.val = k.val; rw [e1]; omega

/-- The packed words' block at point `t`: rows `256·t … 256·t + 255`. -/
theorem pwblk_apply (c : Dev nD) (t : Fin cfg0.N) (r : Fin 256) (p : Fin 1024) :
    pwblk m c t (ix2 r p) = pwarr m c (ix2 (⟨t.val * 256 + r.val, by have := r.isLt; have := t_lt t; omega⟩ : Fin 14336) p) := by
  obtain ⟨-, -, e0, e1, -⟩ := block_indices t
  unfold pwblk iblk
  rw [View.read_apply, ← pw_found m c]
  show (V m c main_arg1 : S14336x1024.Idx → BitVec 32) _ = (V m c main_arg1 : S14336x1024.Idx → BitVec 32) _
  congr 1
  funext a; apply Fin.ext
  match a with
  | ⟨0, _⟩ => show win0_1.index t (0 : Fin 2) * 256 + 1 * r.val = t.val * 256 + r.val; rw [e0]; omega
  | ⟨1, _⟩ => show win0_1.index t (1 : Fin 2) * 1024 + 1 * p.val = p.val; rw [e1]; omega

/-- Scale's block at point `t`: units `256·t … 256·t + 255` of the argument. -/
theorem scblk_apply (c : Dev nD) (t : Fin cfg0.N) (r : Fin 256) :
    scblk m c t (ix2 (0 : Fin 1) r) = scarr m c (ix1 (⟨t.val * 256 + r.val, by have := r.isLt; have := t_lt t; omega⟩ : Fin 14336)) := by
  obtain ⟨-, -, -, -, e0, e1, -⟩ := block_indices t
  rw [← scale_row_apply m c]
  unfold scblk iblk
  rw [View.read_apply]
  show (V m c main_v0 : S1x14336.Idx → EReal) _ = (V m c main_v0 : S1x14336.Idx → EReal) _
  congr 1
  funext a; apply Fin.ext
  match a with
  | ⟨0, _⟩ => show win0_2.index t (0 : Fin 2) * 1 + 1 * 0 = 0; rw [e0]
  | ⟨1, _⟩ => show win0_2.index t (1 : Fin 2) * 256 + 1 * r.val = t.val * 256 + r.val; rw [e1]; omega

/-- Bias's block at point `t`: units `256·t … 256·t + 255` of the argument. -/
theorem biblk_apply (c : Dev nD) (t : Fin cfg0.N) (r : Fin 256) :
    biblk m c t (ix2 (0 : Fin 1) r) = biarr m c (ix1 (⟨t.val * 256 + r.val, by have := r.isLt; have := t_lt t; omega⟩ : Fin 14336)) := by
  obtain ⟨-, -, -, -, -, -, e0, e1, -⟩ := block_indices t
  rw [← bias_row_apply m c]
  unfold biblk iblk
  rw [View.read_apply]
  show (V m c main_v1 : S1x14336.Idx → EReal) _ = (V m c main_v1 : S1x14336.Idx → EReal) _
  congr 1
  funext a; apply Fin.ext
  match a with
  | ⟨0, _⟩ => show win0_3.index t (0 : Fin 2) * 1 + 1 * 0 = 0; rw [e0]
  | ⟨1, _⟩ => show win0_3.index t (1 : Fin 2) * 256 + 1 * r.val = t.val * 256 + r.val; rw [e1]; omega

/-! ## What each point writes back, the cover, the array -/

/-- The specification at the argument arrays as launched. -/
abbrev specAtLaunch (c : Dev nD) : S32x14336.Idx → EReal := clipAffine (xarr m c) (pwarr m c) (scarr m c) (biarr m c)

/-- WHAT POINT `t` WRITES BACK is block `t` — columns `256·t … 256·t + 255` — of the specification. -/
theorem point_writes_columns (c : Dev nD) (t : Fin cfg0.N) :
    (dats m 0 c).flushed 4 t = ((cfg0.win 4).blk t).view.read (Elt Ideal) (specAtLaunch m c) := by
  have ht : t.val < 56 := t_lt t
  obtain ⟨-, -, -, -, -, -, -, -, e0, e1⟩ := block_indices t
  rw [Cert.KernelIdeal.Value.flushed4]
  unfold out0_4
  rw [View.canon_unit_zero zero_offsets]
  simp only [View.ld_unit_zero (S := S32x4096) zero_offsets, View.ld_unit_zero (S := S256x1024) zero_offsets, View.ld_unit_zero (S := S1x256) zero_offsets]
  funext y
  rw [View.read_apply]
  show k0_pay1 (F := Ideal) (k0_pay2 (xblk m c t) (pwblk m c t) (scblk m c t) (biblk m c t)) y = specAtLaunch m c (((cfg0.win 4).blk t).view.emb y)
  have hb : (y 0).val < 32 := (y 0).isLt
  have hr : (y 1).val < 256 := (y 1).isLt
  have ey : (y : S32x256.Idx) = ix2 (⟨(y 0).val, hb⟩ : Fin 32) (⟨(y 1).val, hr⟩ : Fin 256) := by
    funext a; apply Fin.ext
    match a with
    | ⟨0, _⟩ => rfl
    | ⟨1, _⟩ => rfl
  have ei : (((cfg0.win 4).blk t).view.emb y : S32x14336.Idx)
      = ix2 (⟨(y 0).val, hb⟩ : Fin 32) (⟨t.val * 256 + (y 1).val, by omega⟩ : Fin 14336) := by
    funext a; apply Fin.ext
    match a with
    | ⟨0, _⟩ => show win0_4.index t (0 : Fin 2) * 32 + 1 * (y 0).val = (y 0).val; rw [e0]; omega
    | ⟨1, _⟩ => show win0_4.index t (1 : Fin 2) * 256 + 1 * (y 1).val = t.val * 256 + (y 1).val; rw [e1]; omega
  rw [ei]
  refine (congrArg (k0_pay1 (F := Ideal) (k0_pay2 (xblk m c t) (pwblk m c t) (scblk m c t) (biblk m c t))) ey).trans ?_
  exact block_eq (xblk m c t) (xarr m c) (pwblk m c t) (pwarr m c) (scblk m c t) (biblk m c t) (scarr m c) (biarr m c) t.val ht
    (fun b k => (xblk_apply m c t b k).trans (xperm_apply m c b k))
    (fun r p => pwblk_apply m c t r p) (fun r => scblk_apply m c t r) (fun r => biblk_apply m c t r)
    (⟨(y 0).val, hb⟩ : Fin 32) (⟨(y 1).val, hr⟩ : Fin 256)

/-- An index of the result is in point `t`'s block iff each coordinate is in the block's range on its axis. -/
theorem mem_columnBlock (t : Fin cfg0.N) (i : S32x14336.Idx) :
    i ∈ ((cfg0.win 4).blk t).view.set ↔ ∀ a : Fin 2, win0_4.index t a * S32x256.size a ≤ (i a).val ∧ (i a).val < win0_4.index t a * S32x256.size a + S32x256.size a := by
  show i ∈ ((View.whole main_v5).slice (win0_4.rect t)).set ↔ _
  rw [View.set_slice_whole, Rect.mem_set_unit]
  exact Iff.rfl

/-- The 56 column blocks tile the result: column `u` is in block `u / 256`. -/
theorem columns_tile (i : S32x14336.Idx) : ∃ t : Fin cfg0.N, (cfg0.win 4).flush t = true ∧ i ∈ ((cfg0.win 4).blk t).view.set := by
  have h0 : (i 0).val < 32 := (i 0).isLt
  have h1 : (i 1).val < 14336 := (i 1).isLt
  have hN : cfg0.N = 56 := N_0
  obtain ⟨t, htv⟩ : ∃ t : Fin cfg0.N, t.val = (i 1).val / 256 := ⟨⟨(i 1).val / 256, by rw [hN]; omega⟩, rfl⟩
  obtain ⟨-, -, -, -, -, -, -, -, e0, e1⟩ := block_indices t
  refine ⟨t, flush0_4 t, ?_⟩
  rw [mem_columnBlock]
  intro a
  match a with
  | ⟨0, _⟩ =>
    show win0_4.index t (0 : Fin 2) * 32 ≤ (i 0).val ∧ (i 0).val < win0_4.index t (0 : Fin 2) * 32 + 32
    rw [e0]; omega
  | ⟨1, _⟩ =>
    show win0_4.index t (1 : Fin 2) * 256 ≤ (i 1).val ∧ (i 1).val < win0_4.index t (1 : Fin 2) * 256 + 256
    rw [e1, htv]; omega

/-- THE RESULT ARRAY after the run is the specification of the argument arrays. -/
theorem resultArray_eq (c : Dev nD) : (dats m 0 c).arrAt 4 cfg0.N = specAtLaunch m c :=
  (dats m 0 c).arrAt_eq_of_cover 4 (specAtLaunch m c) (fun t _ => point_writes_columns m c t) columns_tile

/-- THE KERNEL'S RUN: the result array at `clipAffine` of the arguments, the arguments unchanged. -/
theorem run : θ_run defs (onTc (τ := τ) (main (F := Ideal))) ⟨m, fun _ => 0, ρ⟩ fun r => ∀ c : Dev nD,
      r.2.mem ((c : Thread nD τ).loc main_v5) = specAtLaunch m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (resultArray_eq m c), (h c).2⟩) (Cert.KernelIdeal.Value.run_blocks m ρ)

end Cert.Ternary.KernelArr

end
-- ==== Proof.RefRun.lean ====
/-
  The reference program's run, read back: @main is a straight line of host operations once the call of the clip
  function is unfolded at its call site, so every weakly fair execution terminates with each buffer at the
  operations' composed value of the argument arrays.

  The composed value is stated through named stages, in the order the reference computes them: one crumb plane
  `(pw >>ₛ s) & 3` as a column of depth one; the four planes stacked on a last axis and flattened to
  `[units, features]`; the negative-index wrap `c < 0 ? c + 4 : c` of the table lookup; the dense ternary matrix
  as a gather from the four-entry table; a per-unit vector broadcast over the batch rows; and the result
  `min(100, max(-100, x · Wᵀ · scale + bias))`.
-/
import proofs.«418144_j90434831385364_2_alg».proof.Proof.Gen.ReferenceIdeal
import Idealize.ShloMosaic.Lib.StableHlo.Run

noncomputable section

namespace Cert.Ternary.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- A scalar word broadcast over the packed weight array. -/
def splatPW (s : BitVec 32) : IVec S14336x1024 32 :=
  broadcastInDim S14336x1024 ![] bcast_S_S14336x1024 (constantI S_ 32 s)

/-- A scalar word broadcast over the dense `[units, features]` array. -/
def splatW (s : BitVec 32) : IVec S14336x4096 32 :=
  broadcastInDim S14336x4096 ![] bcast_S_S14336x4096 (constantI S_ 32 s)

/-- One crumb plane: `(pw >>ₛ s) & 3`, with a trailing axis of extent one. -/
def plane (pw : IVec S14336x1024 32) (s : BitVec 32) : IVec S14336x1024x1 32 :=
  broadcastInDim S14336x1024x1 ![0, 1] bcast_S14336x1024_S14336x1024x1_0_1
    (andi (Host.shrsi pw (splatPW s)) (splatPW 3#32))

/-- The four planes stacked on the last axis and flattened: entry `[u, 4p + i]` is crumb `i` of word `[u, p]`. -/
def crumbsFlat (pw : IVec S14336x1024 32) : IVec S14336x4096 32 :=
  shapeCast S14336x4096
    (concatenate S14336x1024x4 2 [⟨S14336x1024x1, plane pw 0#32⟩, ⟨S14336x1024x1, plane pw 2#32⟩, ⟨S14336x1024x1, plane pw 4#32⟩, ⟨S14336x1024x1, plane pw 6#32⟩] concatenates_S14336x1024x1_S14336x1024x1_S14336x1024x1_S14336x1024x1_S14336x1024x4_d2)
    shapeCasts_S14336x1024x4_S14336x4096

/-- The table lookup's negative-index wrap: `c < 0 ? c + 4 : c`. -/
def wrapIdx (c : IVec S14336x4096 32) : IVec S14336x4096 32 :=
  select (cmpi .slt c (splatW 0#32)) (addi c (splatW 4#32)) c

/-- The four-entry table `[0, 1, -1, 0]`. -/
def lut : FVec F S4 .f32 := fun i => FloatOps.ofBits .f32 (lit0 (S4.rowMajor i))

/-- The dense ternary matrix: the table read at each (wrapped) crumb. -/
def dense (pw : IVec S14336x1024 32) : FVec F S14336x4096 .f32 :=
  Host.gather gather_S4_S14336x4096x1_S14336x4096_n_0_n_n_0_2_1 (lut (F := F))
    (broadcastInDim S14336x4096x1 ![0, 1] bcast_S14336x4096_S14336x4096x1_0_1 (wrapIdx (crumbsFlat pw)))

/-- A per-unit vector as a row, repeated over the batch rows. -/
def overRows (v : FVec F S14336 .f32) : FVec F S32x14336 .f32 :=
  broadcastInDim S32x14336 ![0, 1] bcast_S1x14336_S32x14336_0_1 (broadcastInDim S1x14336 ![1] bcast_S14336_S1x14336_1 v)

/-- A scalar constant over the result's shape. -/
def splatOut (w : BitVec 32) : FVec F S32x14336 .f32 :=
  broadcastInDim S32x14336 ![] bcast_S_S32x14336 (constant S_ .f32 w)

/-- The reference's result as a function of its four argument arrays. -/
def result (x : FVec F S32x4096 .f32) (pw : IVec S14336x1024 32) (sc bi : FVec F S14336 .f32) : FVec F S32x14336 .f32 :=
  minimumf (splatOut 0x42C80000#32)
    (maximumf (splatOut 0xC2C80000#32)
      (addf (mulf (Host.dotGeneral dot_S32x4096_S14336x4096_S32x14336_1_1_0_0_n_n none x (dense pw)) (overRows sc)) (overRows bi)))

/-! ## The run -/

/-- @main's 55 operations in order, the clip function's six listed at its call over the call's buffers. -/
abbrev ops : List (HloOp τ sig (Elt F)) :=
  [
    StableHlo.nullary main_cst (fun i => FloatOps.ofBits .f32 (lit0 (S4.rowMajor i))),
    StableHlo.nullary main_c (constantI S_ 32 0#32),
    StableHlo.unary main_c main_v0 (broadcastInDim S14336x1024 ![] bcast_S_S14336x1024 : (⟨S_, .i32⟩ : BufTy).Contents (Elt F) → (⟨S14336x1024, .i32⟩ : BufTy).Contents (Elt F)),
    StableHlo.binary main_arg1 main_v0 main_v1 (Host.shrsi : (⟨S14336x1024, .i32⟩ : BufTy).Contents (Elt F) → (⟨S14336x1024, .i32⟩ : BufTy).Contents (Elt F) → (⟨S14336x1024, .i32⟩ : BufTy).Contents (Elt F)),
    StableHlo.nullary main_c_0 (constantI S_ 32 3#32),
    StableHlo.unary main_c_0 main_v2 (broadcastInDim S14336x1024 ![] bcast_S_S14336x1024 : (⟨S_, .i32⟩ : BufTy).Contents (Elt F) → (⟨S14336x1024, .i32⟩ : BufTy).Contents (Elt F)),
    StableHlo.binary main_v1 main_v2 main_v3 (andi : (⟨S14336x1024, .i32⟩ : BufTy).Contents (Elt F) → (⟨S14336x1024, .i32⟩ : BufTy).Contents (Elt F) → (⟨S14336x1024, .i32⟩ : BufTy).Contents (Elt F)),
    StableHlo.nullary main_c_1 (constantI S_ 32 2#32),
    StableHlo.unary main_c_1 main_v4 (broadcastInDim S14336x1024 ![] bcast_S_S14336x1024 : (⟨S_, .i32⟩ : BufTy).Contents (Elt F) → (⟨S14336x1024, .i32⟩ : BufTy).Contents (Elt F)),
    StableHlo.binary main_arg1 main_v4 main_v5 (Host.shrsi : (⟨S14336x1024, .i32⟩ : BufTy).Contents (Elt F) → (⟨S14336x1024, .i32⟩ : BufTy).Contents (Elt F) → (⟨S14336x1024, .i32⟩ : BufTy).Contents (Elt F)),
    StableHlo.nullary main_c_2 (constantI S_ 32 3#32),
    StableHlo.unary main_c_2 main_v6 (broadcastInDim S14336x1024 ![] bcast_S_S14336x1024 : (⟨S_, .i32⟩ : BufTy).Contents (Elt F) → (⟨S14336x1024, .i32⟩ : BufTy).Contents (Elt F)),
    StableHlo.binary main_v5 main_v6 main_v7 (andi : (⟨S14336x1024, .i32⟩ : BufTy).Contents (Elt F) → (⟨S14336x1024, .i32⟩ : BufTy).Contents (Elt F) → (⟨S14336x1024, .i32⟩ : BufTy).Contents (Elt F)),
    StableHlo.nullary main_c_3 (constantI S_ 32 4#32),
    StableHlo.unary main_c_3 main_v8 (broadcastInDim S14336x1024 ![] bcast_S_S14336x1024 : (⟨S_, .i32⟩ : BufTy).Contents (Elt F) → (⟨S14336x1024, .i32⟩ : BufTy).Contents (Elt F)),
    StableHlo.binary main_arg1 main_v8 main_v9 (Host.shrsi : (⟨S14336x1024, .i32⟩ : BufTy).Contents (Elt F) → (⟨S14336x1024, .i32⟩ : BufTy).Contents (Elt F) → (⟨S14336x1024, .i32⟩ : BufTy).Contents (Elt F)),
    StableHlo.nullary main_c_4 (constantI S_ 32 3#32),
    StableHlo.unary main_c_4 main_v10 (broadcastInDim S14336x1024 ![] bcast_S_S14336x1024 : (⟨S_, .i32⟩ : BufTy).Contents (Elt F) → (⟨S14336x1024, .i32⟩ : BufTy).Contents (Elt F)),
    StableHlo.binary main_v9 main_v10 main_v11 (andi : (⟨S14336x1024, .i32⟩ : BufTy).Contents (Elt F) → (⟨S14336x1024, .i32⟩ : BufTy).Contents (Elt F) → (⟨S14336x1024, .i32⟩ : BufTy).Contents (Elt F)),
    StableHlo.nullary main_c_5 (constantI S_ 32 6#32),
    StableHlo.unary main_c_5 main_v12 (broadcastInDim S14336x1024 ![] bcast_S_S14336x1024 : (⟨S_, .i32⟩ : BufTy).Contents (Elt F) → (⟨S14336x1024, .i32⟩ : BufTy).Contents (Elt F)),
    StableHlo.binary main_arg1 main_v12 main_v13 (Host.shrsi : (⟨S14336x1024, .i32⟩ : BufTy).Contents (Elt F) → (⟨S14336x1024, .i32⟩ : BufTy).Contents (Elt F) → (⟨S14336x1024, .i32⟩ : BufTy).Contents (Elt F)),
    StableHlo.nullary main_c_6 (constantI S_ 32 3#32),
    StableHlo.unary main_c_6 main_v14 (broadcastInDim S14336x1024 ![] bcast_S_S14336x1024 : (⟨S_, .i32⟩ : BufTy).Contents (Elt F) → (⟨S14336x1024, .i32⟩ : BufTy).Contents (Elt F)),
    StableHlo.binary main_v13 main_v14 main_v15 (andi : (⟨S14336x1024, .i32⟩ : BufTy).Contents (Elt F) → (⟨S14336x1024, .i32⟩ : BufTy).Contents (Elt F) → (⟨S14336x1024, .i32⟩ : BufTy).Contents (Elt F)),
    StableHlo.unary main_v3 main_v16 (broadcastInDim S14336x1024x1 ![0, 1] bcast_S14336x1024_S14336x1024x1_0_1 : (⟨S14336x1024, .i32⟩ : BufTy).Contents (Elt F) → (⟨S14336x1024x1, .i32⟩ : BufTy).Contents (Elt F)),
    StableHlo.unary main_v7 main_v17 (broadcastInDim S14336x1024x1 ![0, 1] bcast_S14336x1024_S14336x1024x1_0_1 : (⟨S14336x1024, .i32⟩ : BufTy).Contents (Elt F) → (⟨S14336x1024x1, .i32⟩ : BufTy).Contents (Elt F)),
    StableHlo.unary main_v11 main_v18 (broadcastInDim S14336x1024x1 ![0, 1] bcast_S14336x1024_S14336x1024x1_0_1 : (⟨S14336x1024, .i32⟩ : BufTy).Contents (Elt F) → (⟨S14336x1024x1, .i32⟩ : BufTy).Contents (Elt F)),
    StableHlo.unary main_v15 main_v19 (broadcastInDim S14336x1024x1 ![0, 1] bcast_S14336x1024_S14336x1024x1_0_1 : (⟨S14336x1024, .i32⟩ : BufTy).Contents (Elt F) → (⟨S14336x1024x1, .i32⟩ : BufTy).Contents (Elt F)),
    StableHlo.nary ![main_v16, main_v17, main_v18, main_v19] main_v20 (fun u => concatenate S14336x1024x4 2 [⟨S14336x1024x1, u 0⟩, ⟨S14336x1024x1, u 1⟩, ⟨S14336x1024x1, u 2⟩, ⟨S14336x1024x1, u 3⟩] concatenates_S14336x1024x1_S14336x1024x1_S14336x1024x1_S14336x1024x1_S14336x1024x4_d2),
    StableHlo.reshape main_v20 main_v21 rfl shapeCasts_S14336x1024x4_S14336x4096,
    StableHlo.nullary main_c_7 (constantI S_ 32 0#32),
    StableHlo.unary main_c_7 main_v22 (broadcastInDim S14336x4096 ![] bcast_S_S14336x4096 : (⟨S_, .i32⟩ : BufTy).Contents (Elt F) → (⟨S14336x4096, .i32⟩ : BufTy).Contents (Elt F)),
    StableHlo.binary main_v21 main_v22 main_v23 (cmpi .slt : (⟨S14336x4096, .i32⟩ : BufTy).Contents (Elt F) → (⟨S14336x4096, .i32⟩ : BufTy).Contents (Elt F) → (⟨S14336x4096, .i1⟩ : BufTy).Contents (Elt F)),
    StableHlo.nullary main_c_8 (constantI S_ 32 4#32),
    StableHlo.unary main_c_8 main_v24 (broadcastInDim S14336x4096 ![] bcast_S_S14336x4096 : (⟨S_, .i32⟩ : BufTy).Contents (Elt F) → (⟨S14336x4096, .i32⟩ : BufTy).Contents (Elt F)),
    StableHlo.binary main_v21 main_v24 main_v25 (addi : (⟨S14336x4096, .i32⟩ : BufTy).Contents (Elt F) → (⟨S14336x4096, .i32⟩ : BufTy).Contents (Elt F) → (⟨S14336x4096, .i32⟩ : BufTy).Contents (Elt F)),
    StableHlo.ternary main_v23 main_v25 main_v21 main_v26 (select : (⟨S14336x4096, .i1⟩ : BufTy).Contents (Elt F) → (⟨S14336x4096, .i32⟩ : BufTy).Contents (Elt F) → (⟨S14336x4096, .i32⟩ : BufTy).Contents (Elt F) → (⟨S14336x4096, .i32⟩ : BufTy).Contents (Elt F)),
    StableHlo.unary main_v26 main_v27 (broadcastInDim S14336x4096x1 ![0, 1] bcast_S14336x4096_S14336x4096x1_0_1 : (⟨S14336x4096, .i32⟩ : BufTy).Contents (Elt F) → (⟨S14336x4096x1, .i32⟩ : BufTy).Contents (Elt F)),
    StableHlo.binary main_cst main_v27 main_v28 ((fun x i => Host.gather gather_S4_S14336x4096x1_S14336x4096_n_0_n_n_0_2_1 x i) : (⟨S4, .f32⟩ : BufTy).Contents (Elt F) → (⟨S14336x4096x1, .i32⟩ : BufTy).Contents (Elt F) → (⟨S14336x4096, .f32⟩ : BufTy).Contents (Elt F)),
    StableHlo.binary main_arg0 main_v28 main_v29 ((fun l r => Host.dotGeneral dot_S32x4096_S14336x4096_S32x14336_1_1_0_0_n_n none l r) : (⟨S32x4096, .f32⟩ : BufTy).Contents (Elt F) → (⟨S14336x4096, .f32⟩ : BufTy).Contents (Elt F) → (⟨S32x14336, .f32⟩ : BufTy).Contents (Elt F)),
    StableHlo.unary main_arg2 main_v30 (broadcastInDim S1x14336 ![1] bcast_S14336_S1x14336_1 : (⟨S14336, .f32⟩ : BufTy).Contents (Elt F) → (⟨S1x14336, .f32⟩ : BufTy).Contents (Elt F)),
    StableHlo.unary main_v30 main_v31 (broadcastInDim S32x14336 ![0, 1] bcast_S1x14336_S32x14336_0_1 : (⟨S1x14336, .f32⟩ : BufTy).Contents (Elt F) → (⟨S32x14336, .f32⟩ : BufTy).Contents (Elt F)),
    StableHlo.binary main_v29 main_v31 main_v32 (mulf : (⟨S32x14336, .f32⟩ : BufTy).Contents (Elt F) → (⟨S32x14336, .f32⟩ : BufTy).Contents (Elt F) → (⟨S32x14336, .f32⟩ : BufTy).Contents (Elt F)),
    StableHlo.unary main_arg3 main_v33 (broadcastInDim S1x14336 ![1] bcast_S14336_S1x14336_1 : (⟨S14336, .f32⟩ : BufTy).Contents (Elt F) → (⟨S1x14336, .f32⟩ : BufTy).Contents (Elt F)),
    StableHlo.unary main_v33 main_v34 (broadcastInDim S32x14336 ![0, 1] bcast_S1x14336_S32x14336_0_1 : (⟨S1x14336, .f32⟩ : BufTy).Contents (Elt F) → (⟨S32x14336, .f32⟩ : BufTy).Contents (Elt F)),
    StableHlo.binary main_v32 main_v34 main_v35 (addf : (⟨S32x14336, .f32⟩ : BufTy).Contents (Elt F) → (⟨S32x14336, .f32⟩ : BufTy).Contents (Elt F) → (⟨S32x14336, .f32⟩ : BufTy).Contents (Elt F)),
    StableHlo.nullary main_cst_9 (constant S_ .f32 0xC2C80000#32),
    StableHlo.nullary main_cst_10 (constant S_ .f32 0x42C80000#32),
    StableHlo.TRef.unary (.of main_cst_9) main_call0.v0 id,
    StableHlo.TRef.unary main_call0.v0 main_call0.v1 (broadcastInDim S32x14336 ![] bcast_S_S32x14336),
    StableHlo.TRef.binary main_call0.v1 (.of main_v35) main_call0.v2 maximumf,
    StableHlo.TRef.unary (.of main_cst_10) main_call0.v3 id,
    StableHlo.TRef.unary main_call0.v3 main_call0.v4 (broadcastInDim S32x14336 ![] bcast_S_S32x14336),
    StableHlo.TRef.binary main_call0.v4 main_call0.v2 main_call0.v5 minimumf ]

set_option maxRecDepth 4096 in
/-- @main is that straight line: the clip function's body unfolded at its call, sequencing reassociated. -/
theorem main_eq (c : Dev nD) : main (F := F) c = seq ops := by
  simp only [main, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., nary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

/-- Every buffer after the run is the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Ternary.Ref

end
-- ==== Proof.RefRead.lean ====
/-
  The reference's result at an index.

  Stage by stage: a splat reads its scalar; a crumb plane at `(u, p, ·)` is `(pw[u,p] >>ₛ s) & 3`; the four planes stacked
  on the last axis and flattened read, at feature `d`, crumb `d % 4` of word `d / 4`; the table lookup's negative-index
  wrap and its clamp into the table never fire, because a crumb is one of `0, 1, 2, 3`, and the table `[0, 1, -1, 0]` at a
  crumb is the crumb's ternary weight; the host's product contracts the feature axis of both operands; the per-unit
  vectors are repeated over the rows.  Together: the specification `clipAffine`.
-/
import proofs.«418144_j90434831385364_2_alg».proof.Proof.RefRun
import proofs.«418144_j90434831385364_2_alg».proof.Proof.Words
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.Ternary.Ref

open Cert.ReferenceIdeal Cert.ReferenceIdeal.Gen Idealize.ShloMosaic Idealize.ShloMosaic.ValueIdx Cert.Ternary

/-! ## Splats and the repeated rows -/

theorem splatPW_apply (s : BitVec 32) (j : S14336x1024.Idx) : splatPW s j = s := by
  unfold splatPW; rw [broadcastInDim_scalar_apply]; rfl

theorem splatW_apply (s : BitVec 32) (j : S14336x4096.Idx) : splatW s j = s := by
  unfold splatW; rw [broadcastInDim_scalar_apply]; rfl

theorem splatOut_apply (w : BitVec 32) (j : S32x14336.Idx) : splatOut (F := Ideal) w j = Ideal.ofBits .f32 w := by
  unfold splatOut; rw [broadcastInDim_scalar_apply]; rfl

/-- A per-unit vector repeated over the rows reads, at `(b, u)`, the vector at `u`. -/
theorem overRows_apply (v : FVec Ideal S14336 .f32) (b : Fin 32) (u : Fin 14336) : overRows v (ix2 b u) = v (ix1 u) := by
  unfold overRows
  rw [broadcastInDim_apply ![0, 1] _ _ (ix2 b u) (ix2 (0 : Fin 1) u) (fun a => by
        match a with
        | ⟨0, _⟩ => rfl
        | ⟨1, _⟩ => rfl),
    broadcastInDim_apply ![1] _ _ (ix2 (0 : Fin 1) u) (ix1 u) (fun a => by
        match a with
        | ⟨0, _⟩ => rfl)]

/-! ## The crumbs -/

/-- A crumb plane at `(u, p, ·)`: the word shifted and masked. -/
theorem plane_apply (pw : IVec S14336x1024 32) (s : BitVec 32) (u : Fin 14336) (p : Fin 1024) (z : Fin 1) :
    plane pw s (ix3 u p z) = IntOp.andi (IntOp.shrsi .host (pw (ix2 u p)) s) 3#32 := by
  unfold plane
  rw [broadcastInDim_apply ![0, 1] _ _ (ix3 u p z) (ix2 u p) (fun a => by
        match a with
        | ⟨0, _⟩ => rfl
        | ⟨1, _⟩ => rfl)]
  show IntOp.andi (IntOp.shrsi .host (pw (ix2 u p)) (splatPW s (ix2 u p))) (splatPW 3#32 (ix2 u p)) = _
  rw [splatPW_apply, splatPW_apply]

/-- The stacked and flattened planes at feature `d` of unit `u`: crumb `d % 4` of word `d / 4`. -/
theorem crumbsFlat_apply (pw : IVec S14336x1024 32) (u : Fin 14336) (d : Fin 4096) :
    crumbsFlat pw (ix2 u d) = crumb (pw (ix2 u (⟨d.val / 4, by have := d.isLt; omega⟩ : Fin 1024))) (d.val % 4) := by
  have hd := d.isLt
  unfold crumbsFlat
  rw [shapeCast_apply _ _ (ix2 u d) (ix3 u (⟨d.val / 4, by omega⟩ : Fin 1024) (⟨d.val % 4, Nat.mod_lt _ (by norm_num)⟩ : Fin 4)) (by
        rw [Shape.rowMajor_val_three, Shape.rowMajor_val_two]
        show (u.val * 1024 + d.val / 4) * 4 + d.val % 4 = u.val * 4096 + d.val
        omega)]
  have hoff : ∀ (b : Fin S14336x1024x1.rank), b.cast (rfl : S14336x1024x1.rank = S14336x1024x4.rank) ≠ (2 : Fin S14336x1024x4.rank) →
      ((ix3 u (⟨d.val / 4, by omega⟩ : Fin 1024) (0 : Fin 1) : S14336x1024x1.Idx) b).val
        = ((ix3 u (⟨d.val / 4, by omega⟩ : Fin 1024) (⟨d.val % 4, Nat.mod_lt _ (by norm_num)⟩ : Fin 4) : S14336x1024x4.Idx) (b.cast rfl)).val := by
    intro b hb
    match b with
    | ⟨0, _⟩ => rfl
    | ⟨1, _⟩ => rfl
    | ⟨2, _⟩ => exact absurd rfl hb
  rcases (by omega : d.val % 4 = 0 ∨ d.val % 4 = 1 ∨ d.val % 4 = 2 ∨ d.val % 4 = 3) with h | h | h | h
  · rw [concatenate_apply_piece (t := S14336x1024x4) (2 : Fin 3) [⟨S14336x1024x1, plane pw 0#32⟩, ⟨S14336x1024x1, plane pw 2#32⟩, ⟨S14336x1024x1, plane pw 4#32⟩, ⟨S14336x1024x1, plane pw 6#32⟩]
        concatenates_S14336x1024x1_S14336x1024x1_S14336x1024x1_S14336x1024x1_S14336x1024x4_d2 _ 0 (by show 0 < 4; omega) S14336x1024x1 (plane pw 0#32) rfl rfl 0 rfl _ hoff
        (by show 0 + 0 = d.val % 4; omega), plane_apply, h]
    exact andi_shrsi_crumb .host _ 0#32 0 rfl (by decide)
  · rw [concatenate_apply_piece (t := S14336x1024x4) (2 : Fin 3) [⟨S14336x1024x1, plane pw 0#32⟩, ⟨S14336x1024x1, plane pw 2#32⟩, ⟨S14336x1024x1, plane pw 4#32⟩, ⟨S14336x1024x1, plane pw 6#32⟩]
        concatenates_S14336x1024x1_S14336x1024x1_S14336x1024x1_S14336x1024x1_S14336x1024x4_d2 _ 1 (by show 1 < 4; omega) S14336x1024x1 (plane pw 2#32) rfl rfl 1 rfl _ hoff
        (by show 1 + 0 = d.val % 4; omega), plane_apply, h]
    exact andi_shrsi_crumb .host _ 2#32 1 rfl (by decide)
  · rw [concatenate_apply_piece (t := S14336x1024x4) (2 : Fin 3) [⟨S14336x1024x1, plane pw 0#32⟩, ⟨S14336x1024x1, plane pw 2#32⟩, ⟨S14336x1024x1, plane pw 4#32⟩, ⟨S14336x1024x1, plane pw 6#32⟩]
        concatenates_S14336x1024x1_S14336x1024x1_S14336x1024x1_S14336x1024x1_S14336x1024x4_d2 _ 2 (by show 2 < 4; omega) S14336x1024x1 (plane pw 4#32) rfl rfl 2 rfl _ hoff
        (by show 2 + 0 = d.val % 4; omega), plane_apply, h]
    exact andi_shrsi_crumb .host _ 4#32 2 rfl (by decide)
  · rw [concatenate_apply_piece (t := S14336x1024x4) (2 : Fin 3) [⟨S14336x1024x1, plane pw 0#32⟩, ⟨S14336x1024x1, plane pw 2#32⟩, ⟨S14336x1024x1, plane pw 4#32⟩, ⟨S14336x1024x1, plane pw 6#32⟩]
        concatenates_S14336x1024x1_S14336x1024x1_S14336x1024x1_S14336x1024x1_S14336x1024x4_d2 _ 3 (by show 3 < 4; omega) S14336x1024x1 (plane pw 6#32) rfl rfl 3 rfl _ hoff
        (by show 3 + 0 = d.val % 4; omega), plane_apply, h]
    exact andi_shrsi_crumb .host _ 6#32 3 rfl (by decide)

/-! ## The table at a crumb -/

/-- A word below four is one of `0, 1, 2, 3`. -/
theorem word_lt_four (c : BitVec 32) (hc : c.toNat < 4) : c = 0#32 ∨ c = 1#32 ∨ c = 2#32 ∨ c = 3#32 := by
  rcases (by omega : c.toNat = 0 ∨ c.toNat = 1 ∨ c.toNat = 2 ∨ c.toNat = 3) with h | h | h | h
  · exact Or.inl (BitVec.eq_of_toNat_eq h)
  · exact Or.inr (Or.inl (BitVec.eq_of_toNat_eq h))
  · exact Or.inr (Or.inr (Or.inl (BitVec.eq_of_toNat_eq h)))
  · exact Or.inr (Or.inr (Or.inr (BitVec.eq_of_toNat_eq h)))

/-- The table `[0, 1, -1, 0]` read at a crumb — through the lookup's wrap of negative indices and its clamp into the
    table, neither of which moves a word in `0 … 3` — is the crumb's ternary weight. -/
theorem lut_at_crumb (c : BitVec 32) (hc : c.toNat < 4)
    (h : min (Scalar.select (IntOp.cmpi .slt c 0#32) (IntOp.addi c 4#32) c).toInt.toNat (4 - 1) < 4) :
    lut (F := Ideal) (ix1 (⟨min (Scalar.select (IntOp.cmpi .slt c 0#32) (IntOp.addi c 4#32) c).toInt.toNat (4 - 1), h⟩ : Fin 4)) = tern c := by
  rcases word_lt_four c hc with rfl | rfl | rfl | rfl <;> rfl

/-- The same with the looked-up word named: whatever word the index array holds, if it is the wrapped crumb. -/
theorem lut_at_word (c : BitVec 32) (hc : c.toNat < 4) (v : BitVec 32)
    (hv : v = Scalar.select (IntOp.cmpi .slt c 0#32) (IntOp.addi c 4#32) c) (h : min v.toInt.toNat (4 - 1) < 4) :
    lut (F := Ideal) (ix1 (⟨min v.toInt.toNat (4 - 1), h⟩ : Fin 4)) = tern c := by
  subst hv; exact lut_at_crumb c hc h

/-! ## The dense matrix, the product, the result -/

/-- The dense ternary matrix at `(u, d)`: the weight of crumb `d % 4` of word `d / 4` of unit `u`. -/
theorem dense_apply (pw : IVec S14336x1024 32) (u : Fin 14336) (d : Fin 4096) :
    dense (F := Ideal) pw (ix2 u d) = wt (pw (ix2 u (⟨d.val / 4, by have := d.isLt; omega⟩ : Fin 1024))) (d.val % 4) := by
  unfold dense
  show Host.gather (takeDims 4 14336 4096 gather_S4_S14336x4096x1_S14336x4096_n_0_n_n_0_2_1_wf) (lut (F := Ideal)) _ (ix2 u d) = _
  rw [gather_take_apply (by norm_num)]
  refine lut_at_word _ (crumb_lt _ _) _ ?_ _
  rw [broadcastInDim_apply ![0, 1] _ _ (takeIdx (ix2 u d)) (ix2 u d) (fun a => by
        match a with
        | ⟨0, _⟩ => rfl
        | ⟨1, _⟩ => rfl)]
  unfold wrapIdx
  show Scalar.select (IntOp.cmpi .slt (crumbsFlat pw (ix2 u d)) (splatW 0#32 (ix2 u d)))
      (IntOp.addi (crumbsFlat pw (ix2 u d)) (splatW 4#32 (ix2 u d))) (crumbsFlat pw (ix2 u d)) = _
  rw [crumbsFlat_apply, splatW_apply, splatW_apply]

/-- The host's product of `[32, 4096]` by `[14336, 4096]` contracting the feature axis of both, at `(b, u)`: the sum over the
    features of the products of row `b` and row `u`. -/
theorem dot_nt_apply (L : FVec Ideal S32x4096 .f32) (R : FVec Ideal S14336x4096 .f32) (b : Fin 32) (u : Fin 14336) :
    Host.dotGeneral dot_S32x4096_S14336x4096_S32x14336_1_1_0_0_n_n none L R (ix2 b u)
      = ∑ k : Fin 4096, L (ix2 b k) * R (ix2 u k) := by
  show FloatOps.dotGeneral _ none .single L R (ix2 b u) = _
  rw [Ideal.dotGeneral_apply, ← Equiv.sum_comp (contrEquiv1 dot_S32x4096_S14336x4096_S32x14336_1_1_0_0_n_n 4096 rfl rfl).symm]
  refine Finset.sum_congr rfl fun k _ => ?_
  have c2 := contrEquiv1_symm_val dot_S32x4096_S14336x4096_S32x14336_1_1_0_0_n_n 4096 rfl rfl k
  have l2 : dot_S32x4096_S14336x4096_S32x14336_1_1_0_0_n_n.lhsIdx (ix2 b u) ((contrEquiv1 _ 4096 rfl rfl).symm k) = ix2 b k := by
    funext ax; apply Fin.ext
    match ax with
    | ⟨0, _⟩ => simp [DotDims.lhsIdx, dot_S32x4096_S14336x4096_S32x14336_1_1_0_0_n_n]; rfl
    | ⟨1, _⟩ => simp [DotDims.lhsIdx, dot_S32x4096_S14336x4096_S32x14336_1_1_0_0_n_n]; exact c2
  have r2 : dot_S32x4096_S14336x4096_S32x14336_1_1_0_0_n_n.rhsIdx (ix2 b u) ((contrEquiv1 _ 4096 rfl rfl).symm k) = ix2 u k := by
    funext ax; apply Fin.ext
    match ax with
    | ⟨0, _⟩ => simp [DotDims.rhsIdx, dot_S32x4096_S14336x4096_S32x14336_1_1_0_0_n_n]; rfl
    | ⟨1, _⟩ => simp [DotDims.rhsIdx, dot_S32x4096_S14336x4096_S32x14336_1_1_0_0_n_n]; exact c2
  rw [l2, r2]

/-- THE REFERENCE'S RESULT IS THE SPECIFICATION, index by index. -/
theorem result_eq (x : FVec Ideal S32x4096 .f32) (pw : IVec S14336x1024 32) (sc bi : FVec Ideal S14336 .f32) :
    result (F := Ideal) x pw sc bi = clipAffine x pw sc bi := by
  funext j
  obtain ⟨b, u, rfl⟩ : ∃ (b : Fin 32) (u : Fin 14336), j = ix2 b u := ⟨j 0, j 1, eq_ix2 j⟩
  rw [clipAffine_ix2]
  unfold result clipAffineAt dotW
  simp only [minimumf_apply, maximumf_apply, addf_apply, mulf_apply]
  rw [splatOut_apply, splatOut_apply, overRows_apply, overRows_apply, dot_nt_apply]
  refine congrArg (min _) (congrArg (max _) (congrArg (· * sc (ix1 u) + bi (ix1 u)) (Finset.sum_congr rfl fun d _ => ?_)))
  rw [dense_apply]

end Cert.Ternary.Ref

end
-- ==== Proof.RefValue.lean ====
/-
  The reference's run at the ideal values, stated at the specification: every weakly fair execution of the reference
  terminates with its result array holding `clipAffine` of the four argument arrays — the operations' composed value
  (`Ref.result`), which is `clipAffine` index by index (`Ref.result_eq`) — and the arguments unchanged.
-/
import proofs.«418144_j90434831385364_2_alg».proof.Proof.RefRead

noncomputable section

namespace Cert.Ternary.Ref

open Cert.ReferenceIdeal Cert.ReferenceIdeal.Gen Idealize.ShloMosaic Idealize.ShloMosaic.TcCoe Idealize.SL.Sem Idealize.ShloMosaic.StableHlo
open Cert.Ternary

-- fifty-five operations' results rewritten one at a time, outermost first, through the stacked planes' operand list
set_option maxHeartbeats 4000000 in
/-- The result buffer after the operations is their composed value of the argument buffers. -/
theorem after_result (V : Valuation τ sig (Elt Ideal)) :
    after ops V (main_v36 : DevRef τ sig)
      = result (F := Ideal) (V (main_arg0 : DevRef τ sig)) (V (main_arg1 : DevRef τ sig)) (V (main_arg2 : DevRef τ sig)) (V (main_arg3 : DevRef τ sig)) := by
  after_results
  rfl

theorem after_arg0 (V : Valuation τ sig (Elt Ideal)) : after ops V (main_arg0 : DevRef τ sig) = V (main_arg0 : DevRef τ sig) := by
  after_results
theorem after_arg1 (V : Valuation τ sig (Elt Ideal)) : after ops V (main_arg1 : DevRef τ sig) = V (main_arg1 : DevRef τ sig) := by
  after_results
theorem after_arg2 (V : Valuation τ sig (Elt Ideal)) : after ops V (main_arg2 : DevRef τ sig) = V (main_arg2 : DevRef τ sig) := by
  after_results
theorem after_arg3 (V : Valuation τ sig (Elt Ideal)) : after ops V (main_arg3 : DevRef τ sig) = V (main_arg3 : DevRef τ sig) := by
  after_results

/-- THE REFERENCE'S RUN: the result array at `clipAffine` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36)
          = clipAffine (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c main_v36).trans (after_result _)).trans (result_eq _ _ _ _),
      (h c main_arg0).trans (after_arg0 _),
      (h c main_arg1).trans (after_arg1 _),
      (h c main_arg2).trans (after_arg2 _),
      (h c main_arg3).trans (after_arg3 _)⟩)
    (run_all m ρ)

end Cert.Ternary.Ref

end
-- ==== Proof.lean ====
/-
  The kernel computes `y = clip(x · unpack(pw)ᵀ · scale + bias, -100, 100)` for ternary weights packed four 2-bit crumbs to
  a word, one block of 256 units per grid point; the reference unpacks the whole weight matrix on the host through a
  four-entry table and multiplies.

  Over the extended reals both are the specification `Cert.Ternary.clipAffine` of the four argument arrays (Proof/Spec.lean):
  * the reference's run is a straight line of host operations (Proof/RefRun.lean) whose composed value, read at an index
    stage by stage, is `clipAffine` (Proof/RefRead.lean, Proof/RefValue.lean) — a crumb is one of `0 … 3`, so the table lookup's
    index wrap and clamp never fire and the table at a crumb is the crumb's ternary weight;
  * the kernel's body at an index of a block is `clipAffine` at the block's place (Proof/KernelBlock.lean): its two word comparisons
    map a crumb to the same weight, and it lays the crumbs out plane-major (feature `i·1024 + p` is crumb `i` of word `p`)
    against activations the host permuted the same way, so its dot product is the reference's with the 4096 terms taken
    in another order — equal because addition of extended reals is commutative and associative; no finiteness is used;
  * the 56 column blocks tile the result array (Proof/KernelArray.lean).
  The three frames are the generated frame certificates' (the reference's: its run with the result dropped); the ideal pass
  rewrote nothing, so `preserves` is `True`.
-/
import proofs.«418144_j90434831385364_2_alg».proof.Defs
import proofs.«418144_j90434831385364_2_alg».proof.Proof.Gen.Kernel
import proofs.«418144_j90434831385364_2_alg».proof.Proof.Gen.Kernel.Skeleton
import proofs.«418144_j90434831385364_2_alg».proof.Proof.Gen.Kernel.Launch
import proofs.«418144_j90434831385364_2_alg».proof.Proof.Gen.Kernel.Points
import proofs.«418144_j90434831385364_2_alg».proof.Proof.Gen.Kernel.Frame
import proofs.«418144_j90434831385364_2_alg».proof.Proof.Gen.KernelIdeal
import proofs.«418144_j90434831385364_2_alg».proof.Proof.Gen.KernelIdeal.Skeleton
import proofs.«418144_j90434831385364_2_alg».proof.Proof.Gen.KernelIdeal.Launch
import proofs.«418144_j90434831385364_2_alg».proof.Proof.Gen.KernelIdeal.Points
import proofs.«418144_j90434831385364_2_alg».proof.Proof.Gen.KernelIdeal.Frame
import proofs.«418144_j90434831385364_2_alg».proof.Proof.Gen.KernelIdeal.Value
import proofs.«418144_j90434831385364_2_alg».proof.Proof.Gen.ReferenceIdeal
import proofs.«418144_j90434831385364_2_alg».proof.Proof.Gen.Pre_finite_inputs
import proofs.«418144_j90434831385364_2_alg».proof.Proof.KernelArray
import proofs.«418144_j90434831385364_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.Ternary.Ref.run m ρ)

theorem preserves : Cert.preserves_Kernel_KernelIdeal := trivial

/-- Both programs end with the specification `clipAffine` of arguments that agree. -/
theorem algebraic : Cert.algebraic_KernelIdeal_ReferenceIdeal := by
  intro m ρ m' ρ' _ hagree
  refine ⟨fun c => Cert.Ternary.KernelArr.specAtLaunch m c, Cert.Ternary.KernelArr.run m ρ, ?_⟩
  refine (θ_run Cert.ReferenceIdeal.defs _ _).mono (fun _ h c => ⟨(h c).1.trans ?_, (h c).2⟩) (Cert.Ternary.Ref.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
